-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128 : Shape := ⟨1, ![128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S262144x128 .f32) (main_arg1 : FVec F S262144x128 .f32) (main_arg2 : FVec F S128 .f32) (main_arg3 : FVec F S128 .f32) (main_arg4 : FVec F S128x128 .f32) (main_arg5 : FVec F S128x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S262144x128 : Shape := ⟨2, ![262144, 128]⟩
abbrev S128 : Shape := ⟨1, ![128]⟩
abbrev S128x128 : Shape := ⟨2, ![128, 128]⟩
abbrev S_ : Shape := ⟨0, ![]⟩
abbrev S1x128 : Shape := ⟨2, ![1, 128]⟩
abbrev S4096x128 : Shape := ⟨2, ![4096, 128]⟩

abbrev nBuf : Space → Nat
  | .hbm => 46
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S128x128, .bf16⟩
  | .hbm, ⟨45, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S4096x128, .f32⟩
  | .local _ .vmem, ⟨9, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v2 : Ref sig .tc := ⟨.hbm, 29, rfl⟩
abbrev main_cst_5 : Ref sig .tc := ⟨.hbm, 30, rfl⟩
abbrev main_cst_6 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v3 : Ref sig .tc := ⟨.hbm, 37, rfl⟩
abbrev main_v4 : Ref sig .tc := ⟨.hbm, 38, rfl⟩
abbrev main_cst_7 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S128 : S_.BroadcastsInDim S128 (![] : Fin 0 → Fin S128.rank)
  bcast_S_S128x128 : S_.BroadcastsInDim S128x128 (![] : Fin 0 → Fin S128x128.rank)
  reducesTo_S128x128_S128_d0 : S128x128.ReducesTo [0] S128
  h_S_ : 0 < S_.numel
  shapeCasts_S128_S1x128 : S128.ShapeCasts S1x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S262144x128.size a
  hwx0_6 : ∀ i : grid0.Coords, EltTy.bits .f32 = 32 ∨ (Rect.block (s := S262144x128) S4096x128.size (cc0_transform_6 i) (hinb0_6 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x128 : Shape := ⟨2, ![262144, 128]⟩
abbrev S128 : Shape := ⟨1, ![128]⟩
abbrev S128x128 : Shape := ⟨2, ![128, 128]⟩
abbrev S_ : Shape := ⟨0, ![]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S1x128, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S128, .f32⟩
  | .hbm, ⟨55, _⟩ => ⟨S1x128, .f32⟩
  | .hbm, ⟨56, _⟩ => ⟨S262144x128, .f32⟩
  | .hbm, ⟨57, _⟩ => ⟨S262144x128, .f32⟩
  | .hbm, ⟨58, _⟩ => ⟨S1x128, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v2 : Ref sig .tc := ⟨.hbm, 29, rfl⟩
abbrev main_cst_5 : Ref sig .tc := ⟨.hbm, 30, rfl⟩
abbrev main_cst_6 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v3 : Ref sig .tc := ⟨.hbm, 37, rfl⟩
abbrev main_v4 : Ref sig .tc := ⟨.hbm, 38, rfl⟩
abbrev main_cst_7 : Ref sig .tc := ⟨.hbm, 39, rfl⟩
abbrev main_v5 : Ref sig .tc := ⟨.hbm, 40, rfl⟩
abbrev main_cst_8 : Ref sig .tc := ⟨.hbm, 41, rfl⟩
abbrev main_cst_9 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S_S128x128 : S_.BroadcastsInDim S128x128 (![] : Fin 0 → Fin S128x128.rank)
  reducesTo_S128x128_S128_d0 : S128x128.ReducesTo [0] S128
  h_S_ : 0 < S_.numel
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.KHost.lean ====
/-
  What the region finds in the four arrays the program prepares before the kernel runs.

  The leak, the bias, the conductances and the reversal potentials are clamped to their ranges (a maximum with the
  lower bound, then a minimum with the upper one); the column sums are the sums over the first axis of the product of
  the clamped conductances and reversal potentials. The leak, the bias and the column sums are handed to the kernel
  reshaped to one row each, the conductances narrowed to the short float format (the identity on extended reals).
-/
import proofs.«157683_j1082331759170_1_alg».proof.Proof.Gen.KernelIdeal.Frame
import Idealize.ShloMosaic.Lib.StableHlo.Run
import Idealize.ShloMosaic.PureOps.Ideal

noncomputable section

namespace Cert.KernelIdeal.Bridge

open Cert.KernelIdeal Cert.KernelIdeal.Gen Idealize.ShloMosaic Idealize.ShloMosaic.TcCoe Idealize.SL.Sem Idealize.ShloMosaic.StableHlo

/-- The leak clamped to [0.01, 1]. -/
abbrev leak (x : FVec Ideal S128 .f32) : FVec Ideal S128 .f32 :=
  minimumf (broadcastInDim S128 ![] bcast_S_S128 (id (constant S_ .f32 0x3F800000#32)))
    (maximumf (broadcastInDim S128 ![] bcast_S_S128 (id (constant S_ .f32 0x3C23D70A#32))) x)

/-- The bias clamped to [-1, 1]. -/
abbrev bias (x : FVec Ideal S128 .f32) : FVec Ideal S128 .f32 :=
  minimumf (broadcastInDim S128 ![] bcast_S_S128 (id (constant S_ .f32 0x3F800000#32)))
    (maximumf (broadcastInDim S128 ![] bcast_S_S128 (id (constant S_ .f32 0xBF800000#32))) x)

/-- The conductances clamped to [0, 1]. -/
abbrev cond (x : FVec Ideal S128x128 .f32) : FVec Ideal S128x128 .f32 :=
  minimumf (broadcastInDim S128x128 ![] bcast_S_S128x128 (id (constant S_ .f32 0x3F800000#32)))
    (maximumf (broadcastInDim S128x128 ![] bcast_S_S128x128 (id (constant S_ .f32 0x00000000#32))) x)

/-- The reversal potentials clamped to [-3, 3]. -/
abbrev rev (x : FVec Ideal S128x128 .f32) : FVec Ideal S128x128 .f32 :=
  minimumf (broadcastInDim S128x128 ![] bcast_S_S128x128 (id (constant S_ .f32 0x40400000#32)))
    (maximumf (broadcastInDim S128x128 ![] bcast_S_S128x128 (id (constant S_ .f32 0xC0400000#32))) x)

/-- The column sums of the clamped conductances times the clamped reversal potentials. -/
abbrev colsum (x y : FVec Ideal S128x128 .f32) : FVec Ideal S128 .f32 :=
  Host.reduceAdd (mulf (cond x) (rev y)) (constant S_ .f32 0x00000000#32) reducesTo_S128x128_S128_d0 h_S_

variable (m : (ℓ : Loc nD τ sig) → Buf (Elt Ideal) ℓ)

set_option maxHeartbeats 4000000 in
/-- The leak row the kernel is given. -/
theorem V_leak (c : Dev nD) :
    (V m c main_v6 : S1x128.Idx → EReal) = shapeCast S1x128 (leak (m ((c : Thread nD τ).loc main_arg2))) shapeCasts_S128_S1x128 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 4000000 in
/-- The bias row the kernel is given. -/
theorem V_bias (c : Dev nD) :
    (V m c main_v7 : S1x128.Idx → EReal) = shapeCast S1x128 (bias (m ((c : Thread nD τ).loc main_arg3))) shapeCasts_S128_S1x128 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 4000000 in
/-- The column-sum row the kernel is given. -/
theorem V_colsum (c : Dev nD) :
    (V m c main_v8 : S1x128.Idx → EReal)
      = shapeCast S1x128 (colsum (m ((c : Thread nD τ).loc main_arg4)) (m ((c : Thread nD τ).loc main_arg5))) shapeCasts_S128_S1x128 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 4000000 in
/-- The conductance matrix the kernel is given. -/
theorem V_cond (c : Dev nD) :
    (V m c main_v9 : S128x128.Idx → EReal) = truncf .bf16 (cond (m ((c : Thread nD τ).loc main_arg4))) bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

end Cert.KernelIdeal.Bridge

end
-- ==== Proof.Spec.lean ====
/-
  The recurrent cell's update as one function of the arrays, entry by entry, over the extended reals.

  For a batch row b and a unit j, with h the state, a the applied input, g and c the (already clamped) leak and bias
  vectors, e the column sums of the clamped synaptic products and w the clamped conductances,

      new(b, j) = h(b, j) + ( ( (-g(j)) · h(b, j) + c(j) ) + a(b, j)
                              + clamp01(h(b, j)) · ( e(j) - Σ_k h(b, k) · w(k, j) ) )

  where clamp01 x = min 1 (max 0 x). Both programs compute exactly this tree of operations, in this grouping, so no
  law of the extended reals beyond 0 - x = -x is needed to join them. Also here: the three layout readings the two
  sides need (a length-128 vector laid out as a row and repeated down the rows; a scalar repeated everywhere).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Cell

open Idealize.ShloMosaic Idealize.ShloMosaic.ValueIdx

/-- The whole batch of states: 262144 rows of 128 units. -/
abbrev Batch : Shape := ⟨2, ![262144, 128]⟩
/-- One tile of 4096 rows. -/
abbrev Tile : Shape := ⟨2, ![4096, 128]⟩
/-- A per-unit vector. -/
abbrev Units : Shape := ⟨1, ![128]⟩
/-- A per-unit vector laid out as one row. -/
abbrev Row : Shape := ⟨2, ![1, 128]⟩
/-- A unit-by-unit matrix. -/
abbrev Pairs : Shape := ⟨2, ![128, 128]⟩
/-- A scalar. -/
abbrev Scalar0 : Shape := ⟨0, ![]⟩

/-- The update at batch row `b`, unit `j`. -/
def updateAt (a h : Batch.Idx → EReal) (g c e : Units.Idx → EReal) (w : Pairs.Idx → EReal) (b : Fin 262144) (j : Fin 128) : EReal :=
  h (ix2 b j) + (((-(g (ix1 j)) * h (ix2 b j) + c (ix1 j)) + a (ix2 b j))
    + min (Ideal.ofBits .f32 0x3F800000#32) (max 0 (h (ix2 b j))) * (e (ix1 j) - ∑ k : Fin 128, h (ix2 b k) * w (ix2 k j)))

/-- The updated batch of states. -/
def update (a h : Batch.Idx → EReal) (g c e : Units.Idx → EReal) (w : Pairs.Idx → EReal) : Batch.Idx → EReal :=
  fun i => updateAt a h g c e w (i 0) (i 1)

theorem update_apply (a h : Batch.Idx → EReal) (g c e : Units.Idx → EReal) (w : Pairs.Idx → EReal) (b : Fin 262144) (j : Fin 128) :
    update a h g c e w (ix2 b j) = updateAt a h g c e w b j := rfl

/-! ## Layout readings -/

/-- A row repeated down a tile's rows reads, at (p, q), the row's entry q. -/
theorem tile_of_row_at {α : Type} (hb : Row.Broadcasts Tile) (v : Row.Idx → α) (p : Fin 4096) (q : Fin 128) :
    broadcastTo Tile v hb (ix2 p q) = v (ix2 0 q) :=
  broadcastTo_apply v hb (ix2 p q) (ix2 0 q) (fun x => match x with
    | ⟨0, _⟩ => by show 0 = if (1 : Nat) = 1 then 0 else _; rw [if_pos rfl]
    | ⟨1, _⟩ => by show q.val = if (128 : Nat) = 1 then 0 else q.val; rw [if_neg (by decide)])

/-- A per-unit vector reshaped to one row reads, at (0, q), the vector's entry q. -/
theorem row_of_units_reshape_at {α : Type} (hc : Units.ShapeCasts Row) (v : Units.Idx → α) (r : Fin 1) (q : Fin 128) :
    shapeCast Row v hc (ix2 r q) = v (ix1 q) :=
  shapeCast_apply v hc (ix2 r q) (ix1 q) (by
    rw [Shape.rowMajor_val_one, Shape.rowMajor_val_two]
    show q.val = r.val * 128 + q.val
    have := r.isLt; omega)

/-- A per-unit vector placed on the column axis of one row, then repeated down the batch's rows, reads at (b, j) the
    vector's entry j. -/
theorem batch_of_units_at {α : Type} (h1 : Units.BroadcastsInDim Row ![1]) (h2 : Row.BroadcastsInDim Batch ![0, 1])
    (v : Units.Idx → α) (b : Fin 262144) (j : Fin 128) :
    broadcastInDim Batch ![0, 1] h2 (broadcastInDim Row ![1] h1 v) (ix2 b j) = v (ix1 j) := by
  rw [broadcastInDim_apply ![0, 1] h2 _ (ix2 b j) (ix2 0 j) (fun x => match x with
    | ⟨0, _⟩ => by show 0 = if (1 : Nat) = 1 then 0 else _; rw [if_pos rfl]
    | ⟨1, _⟩ => by show j.val = if (128 : Nat) = 1 then 0 else j.val; rw [if_neg (by decide)])]
  exact broadcastInDim_apply ![1] h1 v (ix2 0 j) (ix1 j) (fun x => match x with
    | ⟨0, _⟩ => by show j.val = if (128 : Nat) = 1 then 0 else j.val; rw [if_neg (by decide)])

/-- A scalar repeated over the batch reads the scalar everywhere. -/
theorem batch_of_scalar_at {α : Type} (h0 : Scalar0.BroadcastsInDim Batch ![]) (s : Scalar0.Idx → α) (i : Batch.Idx) :
    broadcastInDim Batch ![] h0 s i = s ix0 :=
  broadcastInDim_apply ![] h0 s i ix0 (fun x => x.elim0)

end Cert.Cell

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KPay.lean ====
/-
  The kernel body's arithmetic, read at one entry of a tile.

  From a tile of states h, a tile of applied inputs a, the leak, bias and column-sum rows g, c, e and the
  conductance matrix w, the body stores at (p, q)

      h(p, q) + ( ( (0 - g(0, q)) · h(p, q) + c(0, q) ) + a(p, q)
                  + min 1 (max 0 h(p, q)) · ( e(0, q) - Σ_k h(p, k) · w(k, q) ) ).

  The narrowing of the state tile before the product is the identity on extended reals, the product into a zero
  accumulator is the plain sum over the shared axis, each row repeated down the tile gives its entry q, and
  0 - x = -x.
-/
import proofs.«157683_j1082331759170_1_alg».proof.Proof.Gen.KernelIdeal.Skeleton
import proofs.«157683_j1082331759170_1_alg».proof.Proof.Spec
import proofs.«157683_j1082331759170_1_alg».proof.Proof.LibDot

noncomputable section

open scoped BigOperators

namespace Cert.KernelIdeal.Bridge

open Cert.KernelIdeal Cert.KernelIdeal.Gen Idealize.ShloMosaic Idealize.ShloMosaic.ValueIdx

/-- The stored value at entry (p, q) of the tile. -/
theorem pay_at (h a : Vec Ideal S4096x128 .f32) (w : Vec Ideal S128x128 .bf16) (e g c : Vec Ideal S1x128 .f32)
    (p : Fin 4096) (q : Fin 128) :
    k0_pay1 (F := Ideal) h w e g c a (ix2 p q)
      = h (ix2 p q) + (((-(g (ix2 0 q)) * h (ix2 p q) + c (ix2 0 q)) + a (ix2 p q))
          + min (Ideal.ofBits .f32 0x3F800000#32) (max 0 (h (ix2 p q))) * (e (ix2 0 q) - ∑ k : Fin 128, h (ix2 p k) * w (ix2 k q))) := by
  unfold k0_pay1
  simp only [addf_apply, mulf_apply, subf_apply, minimumf_apply, maximumf_apply, broadcast_apply, shapeCast_self,
    Cert.Cell.tile_of_row_at, matmul]
  rw [Cert.LibDot.matmul_zero_at dot_S4096x128_S128x128_S4096x128_1_0_0_1_n_n rfl rfl rfl rfl rfl rfl]
  show _ + ((((Ideal.ofBits .f32 0x00000000#32 - g (ix2 0 q)) * _ + _) + _) + min (Ideal.ofBits .f32 0x3F800000#32) (max (Ideal.ofBits .f32 0x00000000#32) _) * (_ - ∑ k : Fin 128, h (ix2 p k) * w (ix2 k q))) = _
  rw [Ideal.ofBits_zero_f32, zero_sub]

end Cert.KernelIdeal.Bridge

end
-- ==== Proof.KValue.lean ====
/-
  The kernel's result array is the cell update of the argument arrays.

  Grid point t works on rows 4096·t … 4096·t + 4095 of the state and of the applied input (its two tiles), and on the
  whole leak, bias and column-sum rows and the whole conductance matrix, which the program prepared before the
  region. So what point t writes back is tile t of the update of the whole arrays; the 64 tiles cover the batch (row
  r lies in tile r / 4096); hence the result array holds the update everywhere.
-/
import proofs.«157683_j1082331759170_1_alg».proof.Proof.Gen.KernelIdeal.Value
import proofs.«157683_j1082331759170_1_alg».proof.Proof.KHost
import proofs.«157683_j1082331759170_1_alg».proof.Proof.KPay
import Idealize.ShloMosaic.Lib.Pipeline.Value

noncomputable section

open scoped BigOperators

namespace Cert.KernelIdeal.Bridge

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The windows' block indices at grid point t: the two tiled inputs and the output are at block row t, the four
    prepared arrays always at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The cell update of the argument arrays, with the prepared leak, bias, column sums and conductances. -/
abbrev result (c : Dev nD) : Buf (Elt Ideal) ((c : Thread nD τ).loc main_v10) :=
  Cert.Cell.update (m ((c : Thread nD τ).loc main_arg0)) (m ((c : Thread nD τ).loc main_arg1))
    (leak (m ((c : Thread nD τ).loc main_arg2))) (bias (m ((c : Thread nD τ).loc main_arg3)))
    (colsum (m ((c : Thread nD τ).loc main_arg4)) (m ((c : Thread nD τ).loc main_arg5)))
    (cond (m ((c : Thread nD τ).loc main_arg4)))

/-! ## Each window's block at a point, as entries of the arrays -/

/-- The applied input's tile at point t is rows 4096·t + p of the argument. -/
theorem input_tile_at (c : Dev nD) (t : Fin cfg0.N) (p : Fin 4096) (q : Fin 128) (hb : t.val * 4096 + p.val < 262144) :
    (iblk m c 0 t : Vec Ideal S4096x128 .f32) (ix2 p q)
      = (m ((c : Thread nD τ).loc main_arg0) : S262144x128.Idx → EReal) (ix2 ⟨t.val * 4096 + p.val, hb⟩ q) := by
  obtain ⟨e0, e1, -⟩ := block_index t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 128 + 1 * q.val = q.val; rw [e1]; omega

/-- The state's tile at point t is rows 4096·t + p of the argument. -/
theorem state_tile_at (c : Dev nD) (t : Fin cfg0.N) (p : Fin 4096) (q : Fin 128) (hb : t.val * 4096 + p.val < 262144) :
    (iblk m c 1 t : Vec Ideal S4096x128 .f32) (ix2 p q)
      = (m ((c : Thread nD τ).loc main_arg1) : S262144x128.Idx → EReal) (ix2 ⟨t.val * 4096 + p.val, hb⟩ q) := by
  obtain ⟨-, -, e0, e1, -⟩ := block_index t
  unfold iblk
  rw [View.read_apply]
  show V m c main_arg1 _ = _
  rw [V_main_arg1]
  refine congrArg _ (funext fun a => Fin.ext ?_)
  match a with
  | ⟨0, _⟩ => show win0_1.index t (0 : Fin 2) * 4096 + 1 * p.val = t.val * 4096 + p.val; rw [e0]; omega
  | ⟨1, _⟩ => show win0_1.index t (1 : Fin 2) * 128 + 1 * q.val = q.val; rw [e1]; omega

/-- The leak row at any point is the clamped leak. -/
theorem leak_row_at (c : Dev nD) (t : Fin cfg0.N) (q : Fin 128) :
    (iblk m c 2 t : Vec Ideal S1x128 .f32) (ix2 0 q) = leak (m ((c : Thread nD τ).loc main_arg2)) (ix1 q) := by
  obtain ⟨-, -, -, -, e0, e1, -⟩ := block_index t
  unfold iblk
  rw [View.read_apply]
  show (V m c main_v6 : S1x128.Idx → EReal) _ = _
  rw [V_leak]
  refine (congrArg _ (funext fun a => Fin.ext ?_)).trans (Cert.Cell.row_of_units_reshape_at shapeCasts_S128_S1x128 _ 0 q)
  match a with
  | ⟨0, _⟩ => show win0_2.index t (0 : Fin 2) * 1 + 1 * 0 = 0; rw [e0]
  | ⟨1, _⟩ => show win0_2.index t (1 : Fin 2) * 128 + 1 * q.val = q.val; rw [e1]; omega

/-- The bias row at any point is the clamped bias. -/
theorem bias_row_at (c : Dev nD) (t : Fin cfg0.N) (q : Fin 128) :
    (iblk m c 3 t : Vec Ideal S1x128 .f32) (ix2 0 q) = bias (m ((c : Thread nD τ).loc main_arg3)) (ix1 q) := by
  obtain ⟨-, -, -, -, -, -, e0, e1, -⟩ := block_index t
  unfold iblk
  rw [View.read_apply]
  show (V m c main_v7 : S1x128.Idx → EReal) _ = _
  rw [V_bias]
  refine (congrArg _ (funext fun a => Fin.ext ?_)).trans (Cert.Cell.row_of_units_reshape_at shapeCasts_S128_S1x128 _ 0 q)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The column-sum row at any point is the column sums. -/
theorem colsum_row_at (c : Dev nD) (t : Fin cfg0.N) (q : Fin 128) :
    (iblk m c 4 t : Vec Ideal S1x128 .f32) (ix2 0 q)
      = colsum (m ((c : Thread nD τ).loc main_arg4)) (m ((c : Thread nD τ).loc main_arg5)) (ix1 q) := by
  obtain ⟨-, -, -, -, -, -, -, -, e0, e1, -⟩ := block_index t
  unfold iblk
  rw [View.read_apply]
  show (V m c main_v8 : S1x128.Idx → EReal) _ = _
  rw [V_colsum]
  refine (congrArg _ (funext fun a => Fin.ext ?_)).trans (Cert.Cell.row_of_units_reshape_at shapeCasts_S128_S1x128 _ 0 q)
  match a with
  | ⟨0, _⟩ => show win0_4.index t (0 : Fin 2) * 1 + 1 * 0 = 0; rw [e0]
  | ⟨1, _⟩ => show win0_4.index t (1 : Fin 2) * 128 + 1 * q.val = q.val; rw [e1]; omega

/-- The conductance matrix at any point is the clamped conductances. -/
theorem cond_at (c : Dev nD) (t : Fin cfg0.N) (k q : Fin 128) :
    (iblk m c 5 t : Vec Ideal S128x128 .bf16) (ix2 k q) = cond (m ((c : Thread nD τ).loc main_arg4)) (ix2 k q) := by
  obtain ⟨-, -, -, -, -, -, -, -, -, -, e0, e1, -⟩ := block_index t
  unfold iblk
  rw [View.read_apply]
  show (V m c main_v9 : S128x128.Idx → EReal) _ = _
  rw [V_cond]
  show cond (m ((c : Thread nD τ).loc main_arg4)) (((cfg0.win 5).blk t).view.emb (ix2 k q)) = _
  refine congrArg _ (funext fun a => Fin.ext ?_)
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-! ## One point -/

/-- From tiles and rows that are entries of the arrays, the body's stored value at (p, q) of tile n is the update at
    row 4096·n + p, unit q. -/
theorem point_eq (a h : Cert.Cell.Batch.Idx → EReal) (g b e : Cert.Cell.Units.Idx → EReal) (w : Cert.Cell.Pairs.Idx → EReal)
    (xa xh : Vec Ideal S4096x128 .f32) (xg xb xe : Vec Ideal S1x128 .f32) (xw : Vec Ideal S128x128 .bf16)
    (n : Nat) (p : Fin 4096) (q : Fin 128) (hb : n * 4096 + p.val < 262144)
    (ha : xa (ix2 p q) = a (ix2 ⟨n * 4096 + p.val, hb⟩ q))
    (hh : ∀ k : Fin 128, xh (ix2 p k) = h (ix2 ⟨n * 4096 + p.val, hb⟩ k))
    (hg : xg (ix2 0 q) = g (ix1 q)) (hbias : xb (ix2 0 q) = b (ix1 q)) (he : xe (ix2 0 q) = e (ix1 q))
    (hw : ∀ k : Fin 128, xw (ix2 k q) = w (ix2 k q)) :
    k0_pay1 (F := Ideal) xh xw xe xg xb xa (ix2 p q) = Cert.Cell.update a h g b e w (ix2 ⟨n * 4096 + p.val, hb⟩ q) := by
  rw [pay_at, Cert.Cell.update_apply]
  unfold Cert.Cell.updateAt
  rw [ha, hh q, hg, hbias, he]
  simp only [hh, hw]

/-! ## From tiles to the array -/

/-- What point t writes back is tile t of the update. -/
theorem flushed_eq (c : Dev nD) (t : Fin cfg0.N) :
    (dats m 0 c).flushed 6 t = ((cfg0.win 6).blk t).view.read (Elt Ideal) (result m c) := by
  rw [flushed6]
  unfold out0_6
  rw [View.canon_unit_zero offsets_zero]
  simp only [View.ld_unit_zero (S := S4096x128) offsets_zero, View.ld_unit_zero (S := S1x128) offsets_zero,
    View.ld_unit_zero (S := S128x128) offsets_zero]
  funext y
  obtain ⟨p, q, rfl⟩ : ∃ (p : Fin 4096) (q : Fin 128), y = ix2 p q := ⟨y 0, y 1, eq_ix2 y⟩
  have hN : cfg0.N = 64 := N_0
  have hb : t.val * 4096 + p.val < 262144 := by have := t.isLt; have := p.isLt; omega
  obtain ⟨-, -, -, -, -, -, -, -, -, -, -, -, e0, e1⟩ := block_index t
  have hemb : ((cfg0.win 6).blk t).view.emb (ix2 p q) = ix2 ⟨t.val * 4096 + p.val, hb⟩ q := by
    funext a; apply Fin.ext
    match a with
    | ⟨0, _⟩ => show win0_6.index t (0 : Fin 2) * 4096 + 1 * p.val = t.val * 4096 + p.val; rw [e0]; omega
    | ⟨1, _⟩ => show win0_6.index t (1 : Fin 2) * 128 + 1 * q.val = q.val; rw [e1]; omega
  show k0_pay1 (F := Ideal) (iblk m c 1 t) (iblk m c 5 t) (iblk m c 4 t) (iblk m c 2 t) (iblk m c 3 t) (iblk m c 0 t) (ix2 p q)
    = result m c (((cfg0.win 6).blk t).view.emb (ix2 p q))
  rw [hemb]
  exact point_eq (m ((c : Thread nD τ).loc main_arg0)) (m ((c : Thread nD τ).loc main_arg1))
    (leak (m ((c : Thread nD τ).loc main_arg2))) (bias (m ((c : Thread nD τ).loc main_arg3)))
    (colsum (m ((c : Thread nD τ).loc main_arg4)) (m ((c : Thread nD τ).loc main_arg5)))
    (cond (m ((c : Thread nD τ).loc main_arg4)))
    (iblk m c 0 t) (iblk m c 1 t) (iblk m c 2 t) (iblk m c 3 t) (iblk m c 4 t) (iblk m c 5 t) t.val p q hb
    (input_tile_at m c t p q hb) (fun k => state_tile_at m c t p k hb)
    (leak_row_at m c t q) (bias_row_at m c t q) (colsum_row_at m c t q) (fun k => cond_at m c t k q)

/-- An index of the array is in point t's tile iff each coordinate is in the tile's range on its axis. -/
theorem mem_tile (t : Fin cfg0.N) (i : S262144x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v10).slice (win0_6.rect t)).set ↔ _
  rw [View.set_slice_whole, Rect.mem_set_unit]
  exact Iff.rfl

/-- Every index of the batch lies in the tile of some point: row r in tile r / 4096. -/
theorem tiles_cover (i : S262144x128.Idx) :
    ∃ t : Fin cfg0.N, (cfg0.win 6).flush t = true ∧ i ∈ ((cfg0.win 6).blk t).view.set := by
  have hN : cfg0.N = 64 := N_0
  have hi0 : (i 0).val < 262144 := (i 0).isLt
  have hi1 : (i 1).val < 128 := (i 1).isLt
  have ht : (i 0).val / 4096 < cfg0.N := by omega
  refine ⟨⟨(i 0).val / 4096, ht⟩, flush0_6 _, ?_⟩
  obtain ⟨-, -, -, -, -, -, -, -, -, -, -, -, e0, e1⟩ := block_index ⟨(i 0).val / 4096, ht⟩
  rw [mem_tile]
  intro a
  match a with
  | ⟨0, _⟩ =>
    show win0_6.index ⟨(i 0).val / 4096, ht⟩ (0 : Fin 2) * 4096 ≤ (i 0).val ∧ (i 0).val < win0_6.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_6.index ⟨(i 0).val / 4096, ht⟩ (1 : Fin 2) * 128 ≤ (i 1).val ∧ (i 1).val < win0_6.index ⟨(i 0).val / 4096, ht⟩ (1 : Fin 2) * 128 + 128
    rw [e1]; omega

/-- The result array after the run is the update of the argument arrays. -/
theorem final (c : Dev nD) : (dats m 0 c).arrAt 6 cfg0.N = result m c :=
  (dats m 0 c).arrAt_eq_of_cover 6 (result m c) (fun t _ => flushed_eq m c t) tiles_cover

/-- The kernel's run: the result array ends at the update of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Bridge

end
-- ==== Proof.RefSide.lean ====
/-
  The reference's result, entry by entry, is the cell update of the arrays it is given.

  The reference clamps the state elementwise, takes the plain matrix product of the state with the clamped
  conductances, repeats each per-unit vector (the negated leak, the bias, the column sums) down the batch's rows, and
  combines them in exactly the grouping of the update. Read at an entry (b, j): each repeated vector gives its entry
  j, the product gives the sum over k of h(b, k) · w(k, j), and the host's negation is the extended reals' negation.
-/
import proofs.«157683_j1082331759170_1_alg».proof.Proof.Gen.ReferenceIdeal.Run
import proofs.«157683_j1082331759170_1_alg».proof.Proof.Spec
import proofs.«157683_j1082331759170_1_alg».proof.Proof.LibDot

noncomputable section

open scoped BigOperators

namespace Cert.ReferenceIdeal.Bridge

open Cert.ReferenceIdeal Cert.ReferenceIdeal.Gen Idealize.ShloMosaic Idealize.ShloMosaic.ValueIdx

/-- The reference's last value as a function of the state `h`, the applied input `a`, the clamped leak `g`, bias `c`,
    column sums `e` and conductances `w`, is the cell update. -/
theorem result_eq (a h : FVec Ideal S262144x128 .f32) (g c e : FVec Ideal S128 .f32) (w : FVec Ideal S128x128 .f32) :
    addf h (addf (addf (addf (mulf (broadcastInDim S262144x128 ![0, 1] bcast_S1x128_S262144x128_0_1 (broadcastInDim S1x128 ![1] bcast_S128_S1x128_1 (Host.negf g))) h)
        (broadcastInDim S262144x128 ![0, 1] bcast_S1x128_S262144x128_0_1 (broadcastInDim S1x128 ![1] bcast_S128_S1x128_1 c))) a)
      (mulf (minimumf (broadcastInDim S262144x128 ![] bcast_S_S262144x128 (id (constant S_ .f32 0x3F800000#32)))
          (maximumf (broadcastInDim S262144x128 ![] bcast_S_S262144x128 (id (constant S_ .f32 0x00000000#32))) h))
        (subf (broadcastInDim S262144x128 ![0, 1] bcast_S1x128_S262144x128_0_1 (broadcastInDim S1x128 ![1] bcast_S128_S1x128_1 e))
          (Host.dotGeneral dot_S262144x128_S128x128_S262144x128_1_0_0_1_n_n none h w))))
      = Cert.Cell.update a h g c e w := by
  funext i
  obtain ⟨b, j, rfl⟩ : ∃ (b : Fin 262144) (j : Fin 128), i = ix2 b j := ⟨i 0, i 1, eq_ix2 i⟩
  rw [Cert.Cell.update_apply]
  unfold Cert.Cell.updateAt
  simp only [addf_apply, mulf_apply, subf_apply, minimumf_apply, maximumf_apply, Host.dotGeneral]
  rw [Cert.Cell.batch_of_units_at, Cert.Cell.batch_of_units_at, Cert.Cell.batch_of_units_at,
    Cert.Cell.batch_of_scalar_at, Cert.Cell.batch_of_scalar_at,
    Cert.LibDot.dotGeneral_at dot_S262144x128_S128x128_S262144x128_1_0_0_1_n_n rfl rfl rfl rfl rfl rfl]
  show _ + (((-(g (ix1 j)) * _ + _) + _) + min (Ideal.ofBits .f32 0x3F800000#32) (max (Ideal.ofBits .f32 0x00000000#32) _) * _) = _
  rw [Ideal.ofBits_zero_f32]

end Cert.ReferenceIdeal.Bridge

end
-- ==== Proof.lean ====
/-
  The claim: a batch of recurrent cell states advanced one step by a tiled kernel equals the same step computed by a
  plain array program, over the extended reals.

  Both programs clamp the leak, the bias, the conductances and the reversal potentials, and take the column sums of
  the clamped conductances times the clamped reversal potentials, by the same operations in the same order. The
  kernel then works tile by tile: on 4096 rows of the state h and of the applied input a it stores

      h + ( ( (0 - g) · h + c ) + a + clamp01(h) · ( e - h · w ) ),

  with g, c, e rows repeated down the tile and h · w the matrix product; the reference computes
  h + ( ( (-g) · h + c ) + a + clamp01(h) · ( e - h · w ) ) on the whole batch at once. Entry by entry these are one
  expression (0 - x = -x; the product of a tile's row with w is that row of the whole product), the 64 tiles cover
  the batch, so the two result arrays are equal. No finiteness of the inputs is used. The ideal pass rewrote nothing,
  so there is nothing to preserve. The frames of the two kernels are the generated ones; the reference's frame is its
  generated run with the results dropped.
-/
import proofs.«157683_j1082331759170_1_alg».proof.Defs
import proofs.«157683_j1082331759170_1_alg».proof.Proof.Gen.Kernel
import proofs.«157683_j1082331759170_1_alg».proof.Proof.Gen.Kernel.Skeleton
import proofs.«157683_j1082331759170_1_alg».proof.Proof.Gen.Kernel.Launch
import proofs.«157683_j1082331759170_1_alg».proof.Proof.Gen.Kernel.Points
import proofs.«157683_j1082331759170_1_alg».proof.Proof.Gen.Kernel.Frame
import proofs.«157683_j1082331759170_1_alg».proof.Proof.Gen.KernelIdeal
import proofs.«157683_j1082331759170_1_alg».proof.Proof.Gen.KernelIdeal.Skeleton
import proofs.«157683_j1082331759170_1_alg».proof.Proof.Gen.KernelIdeal.Launch
import proofs.«157683_j1082331759170_1_alg».proof.Proof.Gen.KernelIdeal.Points
import proofs.«157683_j1082331759170_1_alg».proof.Proof.Gen.KernelIdeal.Frame
import proofs.«157683_j1082331759170_1_alg».proof.Proof.Gen.KernelIdeal.Value
import proofs.«157683_j1082331759170_1_alg».proof.Proof.Gen.ReferenceIdeal
import proofs.«157683_j1082331759170_1_alg».proof.Proof.Gen.ReferenceIdeal.Run
import proofs.«157683_j1082331759170_1_alg».proof.Proof.Gen.Pre_finite_inputs
import proofs.«157683_j1082331759170_1_alg».proof.Proof.KValue
import proofs.«157683_j1082331759170_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the cell update of the arguments in their result (returned twice). -/
theorem algebraic : Cert.algebraic_KernelIdeal_ReferenceIdeal := by
  intro m ρ m' ρ' _ hagree
  refine ⟨fun c => Cert.KernelIdeal.Bridge.result m c, fun c => Cert.KernelIdeal.Bridge.result m c, ?_, ?_⟩
  · exact (θ_run Cert.KernelIdeal.defs _ _).mono (fun _ h c => ⟨(h c).1, (h c).1, (h c).2⟩)
      (Cert.KernelIdeal.Bridge.run m ρ)
  · refine (θ_run Cert.ReferenceIdeal.defs _ _).mono (fun _ h c => ?_) (Cert.ReferenceIdeal.Value.run (F := Ideal) m' ρ')
    refine ⟨(h c).1.trans ?_, (h c).2.1.trans ?_, (h c).2.2⟩ <;>
    · rw [(hagree c).1, (hagree c).2.1, (hagree c).2.2.1, (hagree c).2.2.2.1, (hagree c).2.2.2.2.1, (hagree c).2.2.2.2.2]
      exact Cert.ReferenceIdeal.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
